-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S3200000 : Shape := ⟨1, ![3200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg3 : IVec S3200000 32) (main_v13 : IVec S_ 1) (main_v15 : IVec S3200000 1) (main_c_5 : IVec S_ 32) : IVec S_ 1 :=
  let main_v16 : IVec S3200000 32 := broadcastInDim S3200000 ![] bcast_S_S3200000 main_c_5
  let main_v17 : IVec S3200000 1 := cmpi .slt main_arg3 main_v16
  let main_v18 : IVec S3200000 1 := andi main_v15 main_v17
  let main_c_6 : IVec S_ 1 := constantI S_ 1 1#1
  let main_v19 : IVec S_ 1 := (fun x v => Host.reduce IntOp.andi x v reducesTo_S3200000_S_d0 h_S_) main_v18 main_c_6
  let main_v20 : IVec S_ 1 := andi main_v13 main_v19
  main_v20

def fn {F : FTy → Type} [FloatOps F] (main_arg0 : FVec F S100000x256 .f32) (main_arg1 : FVec F S256x64 .f32) (main_arg2 : IVec S3200000 32) (main_arg3 : IVec S3200000 32) (main_arg4 : FVec F S3200000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S3200000 .f32 := Host.absf main_arg4
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_c_4 : IVec S_ 32 := constantI S_ 32 0#32
  let main_v14 : IVec S3200000 32 := broadcastInDim S3200000 ![] bcast_S_S3200000 main_c_4
  let main_v15 : IVec S3200000 1 := cmpi .sge main_arg3 main_v14
  let main_c_5 : IVec S_ 32 := constantI S_ 32 100000#32
  fn_part1 (F := F) main_arg3 main_v13 main_v15 main_c_5
-- ==== Kernel.lean ====
abbrev S100000x256 : Shape := ⟨2, ![100000, 256]⟩
abbrev S256x64 : Shape := ⟨2, ![256, 64]⟩
abbrev S3200000 : Shape := ⟨1, ![3200000]⟩
abbrev S100000x64 : Shape := ⟨2, ![100000, 64]⟩
abbrev S5000x256 : Shape := ⟨2, ![5000, 256]⟩
abbrev S5000x64 : Shape := ⟨2, ![5000, 64]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x64 : Shape := ⟨2, ![3200000, 64]⟩
abbrev S5000 : Shape := ⟨1, ![5000]⟩
abbrev S5000x1 : Shape := ⟨2, ![5000, 1]⟩

abbrev nBuf : Space → Nat
  | .hbm => 37
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S100000x64, .f32⟩
  | .hbm, ⟨6, _⟩ => ⟨S_, .i32⟩
  | .hbm, ⟨7, _⟩ => ⟨S3200000, .i32⟩
  | .hbm, ⟨8, _⟩ => ⟨S3200000, .i1⟩
  | .hbm, ⟨9, _⟩ => ⟨S_, .i32⟩
  | .hbm, ⟨10, _⟩ => ⟨S3200000, .i32⟩
  | .hbm, ⟨11, _⟩ => ⟨S3200000, .i32⟩
  | .hbm, ⟨12, _⟩ => ⟨S3200000, .i32⟩
  | .hbm, ⟨13, _⟩ => ⟨S3200000x1, .i32⟩
  | .hbm, ⟨14, _⟩ => ⟨S1, .i32⟩
  | .hbm, ⟨15, _⟩ => ⟨S_, .i32⟩
  | .hbm, ⟨16, _⟩ => ⟨S3200000x1, .i32⟩
  | .hbm, ⟨17, _⟩ => ⟨S3200000x1, .i1⟩
  | .hbm, ⟨18, _⟩ => ⟨S1x1, .i32⟩
  | .hbm, ⟨19, _⟩ => ⟨S3200000x1, .i32⟩
  | .hbm, ⟨20, _⟩ => ⟨S3200000x1, .i1⟩
  | .hbm, ⟨21, _⟩ => ⟨S3200000x1, .i1⟩
  | .hbm, ⟨22, _⟩ => ⟨S_, .i1⟩
  | .hbm, ⟨23, _⟩ => ⟨S3200000, .i1⟩
  | .hbm, ⟨24, _⟩ => ⟨S3200000x64, .f32⟩
  | .hbm, ⟨25, _⟩ => ⟨S3200000x64, .i1⟩
  | .hbm, ⟨26, _⟩ => ⟨S_, .f32⟩
  | .hbm, ⟨27, _⟩ => ⟨S3200000x64, .f32⟩
  | .hbm, ⟨28, _⟩ => ⟨S3200000x64, .f32⟩
  | .hbm, ⟨29, _⟩ => ⟨S3200000x1, .f32⟩
  | .hbm, ⟨30, _⟩ => ⟨S3200000x64, .f32⟩
  | .hbm, ⟨31, _⟩ => ⟨S3200000x64, .f32⟩
  | .hbm, ⟨32, _⟩ => ⟨S_, .f32⟩
  | .hbm, ⟨33, _⟩ => ⟨S100000x64, .f32⟩
  | .hbm, ⟨34, _⟩ => ⟨S3200000x1, .i32⟩
  | .hbm, ⟨35, _⟩ => ⟨S100000x64, .f32⟩
  | .hbm, ⟨36, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  dot_S5000x256_S256x64_S5000x64_1_0_0_1_n_n_wf : DotDims.WF S5000x256 S256x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S3200000 : Shape := ⟨1, ![3200000]⟩
abbrev S100000x64 : Shape := ⟨2, ![100000, 64]⟩
abbrev S3200000x1 : Shape := ⟨2, ![3200000, 1]⟩
abbrev S_ : Shape := ⟨0, ![]⟩
abbrev S3200000x64 : Shape := ⟨2, ![3200000, 64]⟩
abbrev S100000 : Shape := ⟨1, ![100000]⟩
abbrev S100000x1 : Shape := ⟨2, ![100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S100000x64, .f32⟩
  | .hbm, ⟨6, _⟩ => ⟨S3200000x1, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x64, .f32⟩
  | .hbm, ⟨16, _⟩ => ⟨S3200000x64, .f32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S_, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Spec.lean ====
/-
  The mathematics both programs compute, as functions of the five argument arrays, over the extended reals.

  * `proj x w` — the dense projection h = x · w, entry (i, j) the sum over k of x[i, k] · w[k, j].
  * `mid h rows cols vals` — the sparse aggregation: message e is vals[e] · h[cols'[e], :] where cols' wraps a
    negative column index by the number of nodes; the messages are summed into the rows `rows` names. It is
    carried as ONE opaque chain of host operations (wrap, take, scale, scatter-add): both programs apply exactly
    these operations, so nothing about gather or scatter is ever opened.
  * `softmaxRows a` — the row softmax: exp (a[i, j] − max_k a[i, k]) / Σ_k exp (a[i, k] − max_k a[i, k]), the
    maximum a fold of `max` from −∞ over the 64 entries of the row.
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SNx256 : Shape := ⟨2, ![100000, 256]⟩
abbrev S256x64 : Shape := ⟨2, ![256, 64]⟩
abbrev SNx64 : Shape := ⟨2, ![100000, 64]⟩
abbrev SE : Shape := ⟨1, ![3200000]⟩
abbrev SEx1 : Shape := ⟨2, ![3200000, 1]⟩
abbrev SEx64 : Shape := ⟨2, ![3200000, 64]⟩
abbrev S_ : Shape := ⟨0, ![]⟩

/-! ## The dense projection -/

/-- Row `i` of x against column `j` of w. -/
def proj (x : FVec Ideal SNx256 .f32) (w : FVec Ideal S256x64 .f32) : FVec Ideal SNx64 .f32 :=
  fun i => ∑ k : Fin 256, x (ix2 (⟨(i 0).val, (i 0).isLt⟩ : Fin 100000) k) * w (ix2 k (⟨(i 1).val, (i 1).isLt⟩ : Fin 64))

/-! ## The sparse aggregation, as one chain of host operations -/

theorem bcast_S_SE : S_.BroadcastsInDim SE (![] : Fin 0 → Fin SE.rank) := by decide
theorem bcast_SE_SEx1 : SE.BroadcastsInDim SEx1 (![0] : Fin 1 → Fin SEx1.rank) := by decide
theorem bcast_SEx1_SEx64 : SEx1.BroadcastsInDim SEx64 (![0, 1] : Fin 2 → Fin SEx64.rank) := by decide
theorem bcast_S_SNx64 : S_.BroadcastsInDim SNx64 (![] : Fin 0 → Fin SNx64.rank) := by decide

/-- The take of whole rows of an [N × 64] table by an [E × 1] column of row numbers. -/
def takeRows : GatherDims SNx64 SEx1 SEx64 where
  offsetDims := [1]
  collapsedSliceDims := [0]
  operandBatchingDims := []
  startIndicesBatchingDims := []
  startIndexMap := [0]
  indexVectorDim := 1
  sliceSizes := ![1, 64]
  wf := by decide

/-- The accumulation of [E × 64] rows into the rows of an [N × 64] table an [E × 1] column names. -/
def addRows : ScatterDims SNx64 SEx1 SEx64 where
  updateWindowDims := [1]
  insertedWindowDims := [0]
  scatterDimsToOperandDims := [0]
  indexVectorDim := 1
  wf := by decide

/-- The column indices with a negative one wrapped by the number of nodes, as an [E × 1] column. -/
def wrapCols (cols : IVec SE 32) : IVec SEx1 32 :=
  broadcastInDim SEx1 ![0] bcast_SE_SEx1
    (select (cmpi .slt cols (broadcastInDim SE ![] bcast_S_SE (constantI S_ 32 0#32)))
      (addi cols (broadcastInDim SE ![] bcast_S_SE (constantI S_ 32 100000#32))) cols)

/-- Message e is vals[e] · h[cols'[e], :]; the messages are added into the rows `rows` names, from zero. -/
def mid (h : FVec Ideal SNx64 .f32) (rows cols : IVec SE 32) (vals : FVec Ideal SE .f32) : FVec Ideal SNx64 .f32 :=
  Host.scatterAdd addRows (broadcastInDim SNx64 ![] bcast_S_SNx64 (constant (F := Ideal) S_ .f32 0x00000000#32))
    (broadcastInDim SEx1 ![0] bcast_SE_SEx1 rows)
    (mulf (broadcastInDim SEx64 ![0, 1] bcast_SEx1_SEx64 (broadcastInDim SEx1 ![0] bcast_SE_SEx1 vals))
      (Host.gather takeRows h (wrapCols cols)))

/-! ## The row softmax -/

/-- The maximum of row `p`: the fold of `max` from −∞ over its 64 entries. -/
def rowMax (a : FVec Ideal SNx64 .f32) (p : Fin 100000) : EReal :=
  (Finset.univ : Finset (Fin 64)).fold max (⊥ : EReal) (fun k => a (ix2 p k))

/-- The sum over row `p` of the exponentials of the entries less the row's maximum. -/
def rowSum (a : FVec Ideal SNx64 .f32) (p : Fin 100000) : EReal :=
  ∑ k : Fin 64, Ideal.exp (a (ix2 p k) - rowMax a p)

/-- Each entry's exponential (less the row's maximum) over the row's sum of them. -/
def softmaxRows (a : FVec Ideal SNx64 .f32) : FVec Ideal SNx64 .f32 :=
  fun i => Ideal.div (Ideal.exp (a i - rowMax a (⟨(i 0).val, (i 0).isLt⟩ : Fin 100000)))
    (rowSum a (⟨(i 0).val, (i 0).isLt⟩ : Fin 100000))

/-- What both programs return. -/
def result (x : FVec Ideal SNx256 .f32) (w : FVec Ideal S256x64 .f32) (rows cols : IVec SE 32) (vals : FVec Ideal SE .f32) :
    FVec Ideal SNx64 .f32 :=
  softmaxRows (mid (proj x w) rows cols vals)

end Cert.Spec

end
-- ==== Proof.Region0.lean ====
/-
  The dense projection's region: each of the twenty grid points multiplies a block of 5000 rows of x by the whole of w
  and writes the block of 5000 rows of the product back; the blocks tile the rows, so the array the region leaves is
  the whole product, entry (i, j) the sum over k of x[i, k] · w[k, j] (a change of float format is the identity at the
  extended reals, and the product accumulates from zero).
-/
import proofs.«418180_j37941741093302_2_alg».proof.Proof.Gen.KernelIdeal.Frame
import proofs.«418180_j37941741093302_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product of two blocks at an entry -/

/-- The left operand's row coordinate is the entry's row. -/
theorem lhs_dot_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- The left operand's column coordinate is the summation index. -/
theorem lhs_dot_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- The right operand's row coordinate is the summation index. -/
theorem rhs_dot_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- The right operand's column coordinate is the entry's column. -/
theorem rhs_dot_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- Entry (p, q) of the product of a block of x by w: the sum over k of x[p, k] · w[k, q] (the change of format is the
    identity and the accumulator starts at zero). -/
theorem pay_apply (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  refine (Ideal.matmul_constant_zero_apply dot_S5000x256_S256x64_S5000x64_1_0_0_1_n_n none _ _ (ix2 p q)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 p q) ((ValueIdx.contrEquiv1 dot_S5000x256_S256x64_S5000x64_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S5000x256_S256x64_S5000x64_1_0_0_1_n_n.rhsIdx (ix2 p q) ((ValueIdx.contrEquiv1 dot_S5000x256_S256x64_S5000x64_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]
  rfl

/-! ## The blocks -/

theorem hz : (![0, 0] : Fin 2 → Nat) = fun _ => 0 := funext fun a => by fin_cases a <;> rfl

/-- The printed index maps, decided over the twenty grid points: the block of x and the block of the product are at the
    point's row block and column block 0; w is the one block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks of the product is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- The block of x at a point, read at an index, is x at the index the block's rectangle sends it to. -/
theorem blk_read0 (c : Dev nD) (t : Fin cfg0.N) (y : S5000x256.Idx) :
    iblk0 (F := Ideal) V c 0 t y = V c main_arg0 (((cfg0.win 0).blk t).view.emb y) := by
  unfold iblk0; rfl
/-- The block of w at a point, read at an index, is w at the index the block's rectangle sends it to. -/
theorem blk_read1 (c : Dev nD) (t : Fin cfg0.N) (y : S256x64.Idx) :
    iblk0 (F := Ideal) V c 1 t y = V c main_arg1 (((cfg0.win 1).blk t).view.emb y) := by
  unfold iblk0; rfl

/-- Entry (p, q) of what a point computes is the product's entry where the point's output block puts (p, q). -/
theorem point_apply (c : Dev nD) (t : Fin cfg0.N) (p : Fin 5000) (q : Fin 64) :
    k0_pay1 (F := Ideal) (iblk0 V c 0 t) (iblk0 V c 1 t) (ix2 p q)
      = Cert.Spec.proj (V c main_arg0) (V c main_arg1) (((cfg0.win 2).blk t).view.emb (ix2 p q)) := by
  rw [pay_apply]
  unfold Cert.Spec.proj
  refine Finset.sum_congr rfl fun k _ => ?_
  rw [blk_read0, blk_read1]
  obtain ⟨e0, e1, e2, e3, e4, e5⟩ := idx_facts t
  have h0 : ((cfg0.win 0).blk t).view.emb (ix2 p k)
      = ix2 ⟨(((cfg0.win 2).blk t).view.emb (ix2 p q) 0).val, (((cfg0.win 2).blk t).view.emb (ix2 p q) 0).isLt⟩ k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : ((cfg0.win 1).blk t).view.emb (ix2 k q)
      = ix2 k ⟨(((cfg0.win 2).blk t).view.emb (ix2 p q) 1).val, (((cfg0.win 2).blk t).view.emb (ix2 p q) 1).isLt⟩ := by
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  rw [h0, h1]
  rfl

/-- What a point writes back is the product read through the point's output block. -/
theorem flushed_eq (c : Dev nD) (t : Fin cfg0.N) :
    (dat0 (F := Ideal) V c).flushed 2 t
      = ((cfg0.win 2).blk t).view.read (Elt Ideal) (Cert.Spec.proj (V c main_arg0) (V c main_arg1)) := by
  show (cfg0.win 2).cut (grid0.coords t) ((dat0 V c).after 2 t) = _
  rw [after0_2 V c t]
  unfold out0_2
  rw [View.canon_unit_zero hz]
  simp only [View.ld_unit_zero (S := S5000x256) hz, View.ld_unit_zero (S := S256x64) hz]
  funext j
  have key : ∀ y : S5000x64.Idx, k0_pay1 (F := Ideal) (iblk0 V c 0 t) (iblk0 V c 1 t) y
      = Cert.Spec.proj (V c main_arg0) (V c main_arg1) (((cfg0.win 2).blk t).view.emb y) := fun y => by
    rw [eq_ix2 y]; exact point_apply V c t _ _
  exact key j

/-- An index of the product is in a point's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The twenty blocks of 5000 rows cover the product: row i is in the block of the point whose row block is i / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array region 0 leaves in its output window is the product of the two arrays it finds in its input windows. -/
theorem arr (c : Dev nD) :
    (dat0 (F := Ideal) V c).arrAt 2 cfg0.N = Cert.Spec.proj (V c main_arg0) (V c main_arg1) := by
  exact (dat0 (F := Ideal) V c).arrAt_eq_of_cover 2 _ (fun t _ => flushed_eq V c t) cover

end Cert.KernelIdeal.Region0

end
-- ==== Proof.Region1.lean ====
/-
  The softmax region: each of the twenty grid points takes a block of 5000 rows, and for each row subtracts the row's
  maximum, exponentiates, and divides by the row's sum of exponentials; a row lies in one block, so the array the
  region leaves is the row softmax of the array it finds.
-/
import proofs.«418180_j37941741093302_2_alg».proof.Proof.Gen.KernelIdeal.Frame
import proofs.«418180_j37941741093302_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The reduced index of row p with column k put back is (p, k). -/
theorem lift_row (h : S5000x64.Reduces [1] S5000) (p : Fin 5000) (k : Fin (S5000x64.size 1)) :
    h.lift (ix1 p) k = ix2 p (⟨k.val, k.isLt⟩ : Fin 64) := by
  funext a; apply Fin.ext
  match a with
  | ⟨0, _⟩ => rfl
  | ⟨1, _⟩ => rfl

/-- A vector of 5000 entries kept as a column and broadcast along the 64 columns, read at (p, q), is entry p. -/
theorem keep_apply (z : FVec Ideal S5000 .f32) (p : Fin 5000) (q : Fin 64) :
    broadcastTo S5000x64 (shapeCast S5000x1 z shapeCasts_S5000_S5000x1) broadcasts_S5000x1_S5000x64 (ix2 p q) = z (ix1 p) := by
  refine (broadcastTo_apply _ _ (ix2 p q) (ix2 p (0 : Fin 1)) ?_).trans ?_
  · intro a
    match a with
    | ⟨0, _⟩ => rfl
    | ⟨1, _⟩ => rfl
  · refine shapeCast_apply z _ (ix2 p (0 : Fin 1)) (ix1 p) ?_
    rw [Shape.rowMajor_val_one, Shape.rowMajor_val_two]
    show p.val = p.val * 1 + 0
    omega

/-- The row maximum the block computes: the fold of max from −∞ over the 64 entries of row p. -/
theorem rowmax_apply (x0 : Vec Ideal S5000x64 .f32) (p : Fin 5000) :
    multiReduction (F := Ideal) .maximumf [1] S5000 x0 0xFF800000#32 reduces_S5000x64_S5000 (.inl rfl) rfl (ix1 p)
      = (Finset.univ : Finset (Fin 64)).fold max (⊥ : EReal) (fun k => x0 (ix2 p k)) := by
  refine (Ideal.multiReduction_maximumf_single x0 _ reduces_S5000x64_S5000 (.inl rfl) rfl (ix1 p)).trans ?_
  have hb : FloatOps.ofBits (F := Ideal) .f32 0xFF800000#32 = (⊥ : EReal) := by
    simp [Ideal.ofBits, Ideal.ieee]
  have hf : (x0 ∘ reduces_S5000x64_S5000.lift (ix1 p)) = fun k : Fin 64 => x0 (ix2 p k) :=
    funext fun k => congrArg x0 (lift_row _ p k)
  show Finset.fold max (FloatOps.ofBits (F := Ideal) .f32 0xFF800000#32) _ _ = _
  rw [hb, hf]
  rfl

/-- The row sum the block computes: the sum over the 64 entries of row p. -/
theorem rowsum_apply (y : FVec Ideal S5000x64 .f32) (p : Fin 5000) :
    multiReduction (F := Ideal) .add [1] S5000 y 0x00000000#32 reduces_S5000x64_S5000 (.inl rfl) rfl (ix1 p)
      = ∑ k : Fin 64, y (ix2 p k) := by
  refine (Ideal.multiReduction_add_single y _ reduces_S5000x64_S5000 (.inl rfl) rfl (ix1 p)).trans ?_
  exact Finset.sum_congr rfl fun k _ => congrArg y (lift_row _ p k)

/-- The block's payload at (p, q): the row softmax of the block. -/
theorem pay_apply (x0 : Vec Ideal S5000x64 .f32) (p : Fin 5000) (q : Fin 64) :
    k1_pay1 (F := Ideal) x0 (ix2 p q)
      = Ideal.div (Ideal.exp (x0 (ix2 p q) - (Finset.univ : Finset (Fin 64)).fold max (⊥ : EReal) (fun k => x0 (ix2 p k))))
          (∑ k : Fin 64, Ideal.exp (x0 (ix2 p k) - (Finset.univ : Finset (Fin 64)).fold max (⊥ : EReal) (fun k => x0 (ix2 p k)))) := by
  unfold k1_pay1
  simp only [shapeCast_self]
  have hm : ∀ q' : Fin 64, broadcastTo S5000x64 (shapeCast S5000x1 (multiReduction (F := Ideal) .maximumf [1] S5000 x0 0xFF800000#32 reduces_S5000x64_S5000 (.inl rfl) rfl) shapeCasts_S5000_S5000x1) broadcasts_S5000x1_S5000x64 (ix2 p q')
      = (Finset.univ : Finset (Fin 64)).fold max (⊥ : EReal) (fun k => x0 (ix2 p k)) :=
    fun q' => (keep_apply _ p q').trans (rowmax_apply x0 p)
  show Ideal.div (Ideal.exp (x0 (ix2 p q) - _)) _ = _
  rw [hm q]
  congr 1
  refine (keep_apply _ p q).trans ?_
  refine (rowsum_apply _ p).trans ?_
  refine Finset.sum_congr rfl fun k _ => ?_
  show Ideal.exp (x0 (ix2 p k) - _) = _
  rw [hm k]

/-- The block's payload at (p, q) is the array's row softmax at (p', q) when row p of the block is row p' of the array. -/
theorem point_eq (a : FVec Ideal Cert.Spec.SNx64 .f32) (x0 : Vec Ideal S5000x64 .f32) (p' : Fin 100000) (p : Fin 5000)
    (hx : ∀ k : Fin 64, x0 (ix2 p k) = a (ix2 p' k)) (q : Fin 64) :
    k1_pay1 (F := Ideal) x0 (ix2 p q) = Cert.Spec.softmaxRows a (ix2 p' q) := by
  rw [pay_apply]
  unfold Cert.Spec.softmaxRows Cert.Spec.rowSum Cert.Spec.rowMax
  have hf : (fun k => x0 (ix2 p k)) = fun k => a (ix2 p' k) := funext hx
  rw [hf]
  simp only [hx]

theorem hz : (![0, 0] : Fin 2 → Nat) = fun _ => 0 := funext fun a => by fin_cases a <;> rfl

/-- The index maps over the twenty grid points: both windows' row-block index is the same and at most 19, their
    column-block index is 0. -/
theorem idx_facts : ∀ t : Fin cfg1.N, win1_0.index t (0 : Fin 2) = win1_1.index t (0 : Fin 2)
    ∧ win1_0.index t (1 : Fin 2) = 0
    ∧ win1_1.index t (1 : Fin 2) = 0
    ∧ win1_1.index t (0 : Fin 2) ≤ 19 :=
  (by decide +kernel : ∀ t : Fin grid1.N, _)

/-- Every row block is some point's. -/
theorem idx_onto : ∀ (q0 : Fin 20), ∃ t : Fin cfg1.N, win1_1.index t = ![q0.val, 0] :=
  (by decide +kernel : ∀ (q0 : Fin 20), ∃ t : Fin grid1.N, win1_1.index t = ![q0.val, 0])

/-- The input block at point t, read at y, is the input array at the block's image of y. -/
theorem blk_read (c : Dev nD) (t : Fin cfg1.N) (y : S5000x64.Idx) :
    iblk1 (F := Ideal) V c 0 t y = V c main_v7 (((cfg1.win 0).blk t).view.emb y) := by
  unfold iblk1
  rfl

/-- What point t writes back is block t of the row softmax of the input array. -/
theorem flushed_eq (c : Dev nD) (t : Fin cfg1.N) :
    (dat1 (F := Ideal) V c).flushed 1 t = ((cfg1.win 1).blk t).view.read (Elt Ideal) (Cert.Spec.softmaxRows (V c main_v7)) := by
  show (cfg1.win 1).cut (grid1.coords t) ((dat1 V c).after 1 t) = _
  rw [after1_1 V c t]
  unfold out1_1
  rw [View.canon_unit_zero hz]
  simp only [View.ld_unit_zero (S := S5000x64) hz]
  obtain ⟨e0, e1, e2, e3⟩ := idx_facts t
  funext j
  show k1_pay1 (F := Ideal) (iblk1 V c 0 t) j = Cert.Spec.softmaxRows (V c main_v7) (((cfg1.win 1).blk t).view.emb j)
  have hj0 : (j 0).val < 5000 := (j 0).isLt
  have hj1 : (j 1).val < 64 := (j 1).isLt
  have hp' : win1_1.index t (0 : Fin 2) * 5000 + 1 * (j 0).val < 100000 := by omega
  refine (congrArg (k1_pay1 (F := Ideal) (iblk1 V c 0 t)) (eq_ix2 (n0 := 5000) (n1 := 64) j)).trans ?_
  refine (point_eq (V c main_v7) (iblk1 V c 0 t) ⟨win1_1.index t (0 : Fin 2) * 5000 + 1 * (j 0).val, hp'⟩ (j 0) ?_ (j 1)).trans ?_
  · intro k
    refine (blk_read V c t (ix2 (j 0) k)).trans (congrArg (V c main_v7) ?_)
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 64 + 1 * k.val = k.val; omega
  · refine congrArg (Cert.Spec.softmaxRows (V c main_v7)) ?_
    funext a; apply Fin.ext
    match a with
    | ⟨0, _⟩ => rfl
    | ⟨1, _⟩ => show (j 1).val = win1_1.index t (1 : Fin 2) * 64 + 1 * (j 1).val; omega

/-- An index of the array is in point t's block iff each coordinate is in the block's range on its axis. -/
theorem mem_blk (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v8).slice (win1_1.rect t)).set ↔ _
  rw [View.set_slice_whole, Rect.mem_set_unit]
  exact Iff.rfl

/-- Every index of the array is in the block of the point whose row block holds its row. -/
theorem cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := idx_onto ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_blk]
  intro a
  match a with
  | ⟨0, _⟩ => show win1_1.index t (0 : Fin 2) * 5000 ≤ (i 0).val ∧ (i 0).val < win1_1.index t (0 : Fin 2) * 5000 + 5000; omega
  | ⟨1, _⟩ => show win1_1.index t (1 : Fin 2) * 64 ≤ (i 1).val ∧ (i 1).val < win1_1.index t (1 : Fin 2) * 64 + 64; omega

/-- The array region 1 leaves in its output window is the row softmax of the array it finds in its input window. -/
theorem arr (c : Dev nD) :
    (dat1 (F := Ideal) V c).arrAt 1 cfg1.N = Cert.Spec.softmaxRows (V c main_v7) := by
  exact (dat1 (F := Ideal) V c).arrAt_eq_of_cover 1 _ (fun t _ => flushed_eq V c t) (fun i => cover i)

end Cert.KernelIdeal.Region1

end
-- ==== Proof.Mask.lean ====
/-
  The kernel program's own chain of host operations between its two regions. It is the specification's chain with one
  more step: the rows taken are replaced by a fill value wherever the wrapped column index lies outside [0, 99999].
  When every column index is in [0, 100000) no index is wrapped and none lies outside, so the fill is never chosen and
  the chain is the specification's.
-/
import proofs.«418180_j37941741093302_2_alg».proof.KernelIdeal
import proofs.«418180_j37941741093302_2_alg».proof.Proof.Gen.KernelIdeal
import proofs.«418180_j37941741093302_2_alg».proof.Proof.Spec
import Idealize.ShloMosaic.Lib.ValueIdx
import Idealize.ShloMosaic.Lib.ReduceAll
import Idealize.ShloMosaic.Lib.StableHlo.Predicate

noncomputable section

namespace Cert.KernelIdeal.Mask

open Cert.KernelIdeal
open Idealize.ShloMosaic Idealize.ShloMosaic.ValueIdx
open Facts₀

/-- The wrapped column indices as an [E × 1] column, as the kernel program computes them. -/
def colsK (cols : IVec S3200000 32) : IVec S3200000x1 32 :=
  broadcastInDim S3200000x1 ![0] bcast_S3200000_S3200000x1_0
    (select (cmpi .slt cols (broadcastInDim S3200000 ![] bcast_S_S3200000 (constantI S_ 32 0#32)))
      (addi cols (broadcastInDim S3200000 ![] bcast_S_S3200000 (constantI S_ 32 100000#32))) cols)

/-- Which rows are taken inside the table: the wrapped index is in [0, 99999]. -/
def inRangeK (cols : IVec S3200000 32) : IVec S3200000 1 :=
  Host.reduce IntOp.andi
    (andi (cmpi .sge (colsK cols) (broadcastInDim S3200000x1 ![] bcast_S_S3200000x1 (constantI S_ 32 0#32)))
      (cmpi .sle (colsK cols) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The rows taken, with the fill where the index is out of range. -/
def takenK (h : FVec Ideal S100000x64 .f32) (cols : IVec S3200000 32) : FVec Ideal S3200000x64 .f32 :=
  select (broadcastInDim S3200000x64 ![0] bcast_S3200000_S3200000x64_0 (inRangeK cols))
    (Host.gather gather_S100000x64_S3200000x1_S3200000x64_1_0_n_n_0_1_164 h (colsK cols))
    (broadcastInDim S3200000x64 ![] bcast_S_S3200000x64 (constant (F := Ideal) S_ .f32 0x7FC00000#32))

/-- The kernel program's chain: take (with the fill), scale, scatter-add from zero. -/
def midK (h : FVec Ideal S100000x64 .f32) (rows cols : IVec S3200000 32) (vals : FVec Ideal S3200000 .f32) :
    FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (broadcastInDim S3200000x64 ![0, 1] bcast_S3200000x1_S3200000x64_0_1 (broadcastInDim S3200000x1 ![0] bcast_S3200000_S3200000x1_0 vals))
      (takenK h cols))

/-! ## One column index

A 32-bit word c with 0 ≤ c < 100000 (signed) is not negative, so the wrap leaves it as it is; and it is at most 99999,
so both range tests say yes. -/

theorem fill_never (c : BitVec 32) (h0 : IntOp.cmpi .sge c 0#32 = 1#1) (h1 : IntOp.cmpi .slt c 100000#32 = 1#1) :
    Scalar.select (IntOp.cmpi .slt c 0#32) (IntOp.addi c 100000#32) c = c ∧
      IntOp.andi (IntOp.cmpi .sge c 0#32) (IntOp.cmpi .sle c 99999#32) = 1#1 := by
  have z0 : (0#32 : BitVec 32).toInt = 0 := by decide
  have z1 : (100000#32 : BitVec 32).toInt = 100000 := by decide
  have z2 : (99999#32 : BitVec 32).toInt = 99999 := by decide
  have g0 := h0
  rw [IntOp.cmpi_sge, z0] at g0
  have g1 := h1
  rw [IntOp.cmpi_slt, z1] at g1
  refine ⟨?_, IntOp.andi_eq_one.2 ⟨h0, ?_⟩⟩
  · have hn : ¬ IntOp.cmpi .slt c 0#32 = 1#1 := by rw [IntOp.cmpi_slt, z0]; omega
    unfold Scalar.select
    exact if_neg hn
  · rw [IntOp.cmpi_sle, z2]; omega

/-! ## The vector bookkeeping -/

/-- A fold by `and` from 1 over words that are all 1 is 1. -/
theorem foldl_andi_all {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_all f hf l

/-- A broadcast read at an index is the operand read at some index. -/
theorem bcast_read {α : Type} {s t : Shape} (dims : Fin s.rank → Fin t.rank) (hb : s.BroadcastsInDim t dims) (x : s.Idx → α)
    (j : t.Idx) : ∃ k : s.Idx, broadcastInDim t dims hb x j = x k := ⟨_, rfl⟩

/-- A select whose mask is 1 everywhere is its first branch. -/
theorem select_of_all_one {α : Type} {s : Shape} (m : IVec s 1) (a b : s.Idx → α) (hm : ∀ i, m i = 1#1) : select m a b = a := by
  funext i
  show Scalar.select (m i) (a i) (b i) = a i
  rw [hm i]
  rfl

/-- The wrapped column index at an entry is the selection on some entry of the column indices. -/
theorem colsK_read (cols : IVec S3200000 32) (i : S3200000x1.Idx) :
    ∃ k : S3200000.Idx, colsK cols i
      = Scalar.select (IntOp.cmpi .slt (cols k) 0#32) (IntOp.addi (cols k) 100000#32) (cols k) := ⟨_, rfl⟩

/-- With every column index in [0, 100000), every entry passes the range test. -/
theorem inRangeK_eq_one (cols : IVec S3200000 32)
    (hr : ∀ e : S3200000.Idx, IntOp.cmpi .sge (cols e) 0#32 = 1#1 ∧ IntOp.cmpi .slt (cols e) 100000#32 = 1#1)
    (e : S3200000.Idx) : inRangeK cols e = 1#1 := by
  unfold inRangeK
  rw [Host.reduce_eq_foldl]
  refine foldl_andi_all _ (fun i => ?_) _
  obtain ⟨k, hk⟩ := colsK_read cols i
  have hc := fill_never (cols k) (hr k).1 (hr k).2
  show IntOp.andi (IntOp.cmpi .sge (colsK cols i) 0#32) (IntOp.cmpi .sle (colsK cols i) 99999#32) = 1#1
  rw [hk, hc.1]
  exact hc.2

/-- So the fill is never chosen: the rows taken are the plain take. -/
theorem takenK_eq (h : FVec Ideal S100000x64 .f32) (cols : IVec S3200000 32)
    (hr : ∀ e : S3200000.Idx, IntOp.cmpi .sge (cols e) 0#32 = 1#1 ∧ IntOp.cmpi .slt (cols e) 100000#32 = 1#1) :
    takenK h cols = Host.gather gather_S100000x64_S3200000x1_S3200000x64_1_0_n_n_0_1_164 h (colsK cols) := by
  unfold takenK
  refine select_of_all_one _ _ _ (fun i => ?_)
  obtain ⟨k, hk⟩ := bcast_read ![0] bcast_S3200000_S3200000x64_0 (inRangeK cols) i
  rw [hk]
  exact inRangeK_eq_one cols hr k

/-! ## The dimension records are the specification's -/

theorem gather_eq : gather_S100000x64_S3200000x1_S3200000x64_1_0_n_n_0_1_164 = Cert.Spec.takeRows := rfl
theorem scatter_eq : scatter_S100000x64_S3200000x1_S3200000x64_1_0_0_1 = Cert.Spec.addRows := rfl
theorem colsK_eq (cols : IVec S3200000 32) : colsK cols = Cert.Spec.wrapCols cols := rfl

/-- With every column index in [0, 100000) the fill is never chosen: the chain is the specification's. -/
theorem midK_eq_of_range (h : FVec Ideal S100000x64 .f32) (rows cols : IVec S3200000 32) (vals : FVec Ideal S3200000 .f32)
    (hr : ∀ e : S3200000.Idx, IntOp.cmpi .sge (cols e) 0#32 = 1#1 ∧ IntOp.cmpi .slt (cols e) 100000#32 = 1#1) :
    midK h rows cols vals = Cert.Spec.mid h rows cols vals := by
  unfold midK Cert.Spec.mid
  rw [takenK_eq h cols hr, gather_eq, scatter_eq, colsK_eq]

end Cert.KernelIdeal.Mask

end
-- ==== Proof.HostMid.lean ====
/-
  Between the two regions the kernel program runs its host operations: the take of rows of the projection by the
  (wrapped) column indices, with a fill where an index is out of range; the scaling by the edge values; the
  scatter-add into the rows the row indices name. Read off the two stretches of operations, the array the second
  region finds is that chain of the array the first region left and of the three edge arguments.
-/
import proofs.«418180_j37941741093302_2_alg».proof.Proof.Gen.KernelIdeal.Frame
import proofs.«418180_j37941741093302_2_alg».proof.Proof.Mask
import Idealize.ShloMosaic.Lib.StableHlo.Run

set_option maxRecDepth 16384

noncomputable section

namespace Cert.KernelIdeal.HostMid

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## A typed reference's transport of contents is the identity where the buffer's type is the value's -/

section Generic
variable {F : FTy → Type} [FloatOps F]

/-- Contents carried to a buffer's type and back are the contents. -/
theorem ofBuf_toBuf_of {Val : EltTy → Type} {T : BufTy} (r : Ref sig .tc) (h h' : r.ty = T) (a b a' b') (v : T.Contents Val) :
    (TRef.of r h a b).ofBuf ((TRef.of r h' a' b').toBuf v) = v := by
  subst h
  rfl

/-- At the three buffers the take reads from or writes to, whose types are the values', the transport is the identity. -/
theorem toBuf_taken (p1 p2 p3) (v : (⟨S3200000x64, .f32⟩ : BufTy).Contents (Elt F)) :
    (TRef.of (T := ⟨S3200000x64, .f32⟩) main_v1 p1 p2 p3).toBuf v = v := rfl
theorem ofBuf_cols (p1 p2 p3) (v : (main_arg3 : Ref sig .tc).ty.Contents (Elt F)) :
    (TRef.of (T := ⟨S3200000, .i32⟩) main_arg3 p1 p2 p3).ofBuf v = v := rfl
theorem ofBuf_table (p1 p2 p3) (v : (main_v0 : Ref sig .tc).ty.Contents (Elt F)) :
    (TRef.of (T := ⟨S100000x64, .f32⟩) main_v0 p1 p2 p3).ofBuf v = v := rfl

/-! ## The two stretches of host operations between the regions, over any contents `w` they start from -/

/-- The rows taken, with the fill where a wrapped index is out of range, at any float values. -/
def takenF (h : FVec F S100000x64 .f32) (cols : IVec S3200000 32) : FVec F S3200000x64 .f32 :=
  select (broadcastInDim S3200000x64 ![0] Facts₀.bcast_S3200000_S3200000x64_0 (Mask.inRangeK cols))
    (Host.gather gather_S100000x64_S3200000x1_S3200000x64_1_0_n_n_0_1_164 h (Mask.colsK cols))
    (broadcastInDim S3200000x64 ![] Facts₀.bcast_S_S3200000x64 (constant (F := F) S_ .f32 0x7FC00000#32))

set_option maxHeartbeats 1000000 in
/-- The first stretch (the take) leaves the taken rows: its operations composed, each intermediate buffer read back as
    what was written to it. Stated at any float values: the operations are the same terms on both sides. -/
theorem stretch1F (w : Valuation τ sig (Elt F)) :
    StableHlo.after (hostOps1 (F := F)) w (Proc.devRef .tc main_v1)
      = takenF (w (Proc.devRef .tc main_v0)) (w (Proc.devRef .tc main_arg3)) := by
  after_results_simp
  simp only [ofBuf_toBuf_of, toBuf_taken, ofBuf_cols, ofBuf_table]
  unfold takenF Mask.inRangeK Mask.colsK
  rfl

end Generic

/-- At the extended reals that is the kernel program's take. -/
theorem stretch1 (w : Valuation τ sig (Elt Ideal)) :
    StableHlo.after (hostOps1 (F := Ideal)) w (Proc.devRef .tc main_v1)
      = Mask.takenK (w (Proc.devRef .tc main_v0)) (w (Proc.devRef .tc main_arg3)) :=
  stretch1F (F := Ideal) w

/-- The first stretch writes neither the row indices nor the edge values. -/
theorem stretch1_arg2 (w : Valuation τ sig (Elt Ideal)) :
    StableHlo.after (hostOps1 (F := Ideal)) w (Proc.devRef .tc main_arg2) = w (Proc.devRef .tc main_arg2) := by
  after_results_simp

theorem stretch1_arg4 (w : Valuation τ sig (Elt Ideal)) :
    StableHlo.after (hostOps1 (F := Ideal)) w (Proc.devRef .tc main_arg4) = w (Proc.devRef .tc main_arg4) := by
  after_results_simp

/-- The second stretch (scale, zero table, scatter-add) leaves in its last buffer the scatter-add of the scaled rows the
    first stretch left. -/
theorem stretch2 (w : Valuation τ sig (Elt Ideal)) :
    StableHlo.after (hostOps1_1 (F := Ideal)) w (Proc.devRef .tc main_v7)
      = Host.scatterAdd scatter_S100000x64_S3200000x1_S3200000x64_1_0_0_1
          (broadcastInDim S100000x64 ![] Facts₀.bcast_S_S100000x64 (constant (F := Ideal) S_ .f32 0x00000000#32))
          (broadcastInDim S3200000x1 ![0] Facts₀.bcast_S3200000_S3200000x1_0 (w (Proc.devRef .tc main_arg2)))
          (mulf (broadcastInDim S3200000x64 ![0, 1] Facts₀.bcast_S3200000x1_S3200000x64_0_1
              (broadcastInDim S3200000x1 ![0] Facts₀.bcast_S3200000_S3200000x1_0 (w (Proc.devRef .tc main_arg4))))
            (w (Proc.devRef .tc main_v1))) := by
  after_results

/-! ## The array the second region finds -/

/-- What region 1 finds in its input window: the kernel program's chain of the array region 0 left and of the three edge
    arguments as launched (region 0 writes none of them). -/
theorem v7_eq (c : Dev nD) :
    V3 (F := Ideal) m ρ c main_v7
      = Mask.midK (W1 m ρ c (Proc.devRef .tc main_v0)) (m ((c : Thread nD τ).loc main_arg2))
          (m ((c : Thread nD τ).loc main_arg3)) (m ((c : Thread nD τ).loc main_arg4)) := by
  have e2 : W1 m ρ c (Proc.devRef .tc main_arg2) = m ((c : Thread nD τ).loc main_arg2) := W1_of_ne m ρ c main_arg2 (by decide)
  have e3 : W1 m ρ c (Proc.devRef .tc main_arg3) = m ((c : Thread nD τ).loc main_arg3) := W1_of_ne m ρ c main_arg3 (by decide)
  have e4 : W1 m ρ c (Proc.devRef .tc main_arg4) = m ((c : Thread nD τ).loc main_arg4) := W1_of_ne m ρ c main_arg4 (by decide)
  refine (stretch2 (StableHlo.after (hostOps1 (F := Ideal)) (W1 m ρ c))).trans ?_
  rw [stretch1, stretch1_arg2, stretch1_arg4, e2, e3, e4]
  rfl

end Cert.KernelIdeal.HostMid

end
-- ==== Proof.KernelValue.lean ====
/-
  The kernel program's result, read off its run: the second region leaves the row softmax of what it finds; it finds
  the chain of host operations applied to what the first region left; the first region leaves the projection of the
  two float arguments as launched. With the column indices in range the chain is the specification's, so the result
  buffer holds the specification's result of the five arguments.
-/
import proofs.«418180_j37941741093302_2_alg».proof.Proof.RunV
import proofs.«418180_j37941741093302_2_alg».proof.Proof.Region0
import proofs.«418180_j37941741093302_2_alg».proof.Proof.Region1
import proofs.«418180_j37941741093302_2_alg».proof.Proof.HostMid
import proofs.«418180_j37941741093302_2_alg».proof.Proof.Mask
import proofs.«418180_j37941741093302_2_alg».proof.Proof.Spec

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer: the specification's result of the arguments as launched. -/
theorem w4_v8 (c : Dev nD)
    (hr : ∀ e : S3200000.Idx, IntOp.cmpi .sge (m ((c : Thread nD τ).loc main_arg3) e) 0#32 = 1#1
      ∧ IntOp.cmpi .slt (m ((c : Thread nD τ).loc main_arg3) e) 100000#32 = 1#1) :
    W4 (F := Ideal) m ρ c (Proc.devRef .tc main_v8)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4)) := by
  have h1 : W4 m ρ c (Proc.devRef .tc main_v8) = (dat1 (V3 m ρ) c).arrAt 1 cfg1.N := W4_arr m ρ c 1
  have h0 : W1 m ρ c (Proc.devRef .tc main_v0) = (dat0 (V0 m ρ) c).arrAt 2 cfg0.N := W1_arr m ρ c 2
  rw [h1, Region1.arr (V3 m ρ) c, HostMid.v7_eq m ρ c, h0, Region0.arr (V0 m ρ) c,
    Mask.midK_eq_of_range _ _ _ _ hr]
  rfl

end Cert.KernelIdeal.KernelValue

end
-- ==== Proof.PreRange.lean ====
/-
  What the precondition says of the column indices: its last conjunct is "every column index is at least 0 and below
  100000", an all-reduction of the conjunction of two signed comparisons; read entry by entry.
-/
import proofs.«418180_j37941741093302_2_alg».proof.Pre_finite_inputs
import proofs.«418180_j37941741093302_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRange

open Cert.Pre_finite_inputs Cert.Pre_finite_inputs.Gen
open Idealize.ShloMosaic Idealize.ShloMosaic.ValueIdx

/-- The rank-0 shape has one index. -/
instance subsingleton_scalar_idx : Subsingleton S_.Idx := ⟨fun a b => funext fun d => d.elim0⟩

/-- Where the precondition holds, every column index is in [0, 100000). -/
theorem cols_range (a0 : FVec Ideal S100000x256 .f32) (a1 : FVec Ideal S256x64 .f32) (a2 a3 : IVec S3200000 32)
    (a4 : FVec Ideal S3200000 .f32)
    (h : Cert.Pre_finite_inputs.fn (F := Ideal) a0 a1 a2 a3 a4 = fun _ => 1#1) :
    ∀ e : S3200000.Idx, IntOp.cmpi .sge (a3 e) 0#32 = 1#1 ∧ IntOp.cmpi .slt (a3 e) 100000#32 = 1#1 := by
  intro e
  -- the one entry of the result is 1
  have h0 := congrFun h ValueIdx.ix0
  dsimp only [Cert.Pre_finite_inputs.fn, Cert.Pre_finite_inputs.fn_part1] at h0
  -- its last conjunct: the all-reduction of the two comparisons' conjunction is 1
  have h1 := (IntOp.andi_eq_one.1 h0).2
  -- so the conjunction is 1 at every entry
  have h2 := Host.reduce_andi_all _ _ _ _ _ h1 e
  exact IntOp.andi_eq_one.1 h2

end Cert.PreRange

end
-- ==== Proof.RefValue.lean ====
/-
  The reference's result, read one operation at a time, is the specification: its dot_general is the projection's sum
  over k, its gather / scale / scatter chain is the specification's chain of the same operations, and its softmax
  (a reduce with max from −∞, a further max with −∞, subtract, exponential, a reduce with add from 0, divide) is the
  row softmax.
-/
import proofs.«418180_j37941741093302_2_alg».proof.Proof.Gen.ReferenceIdeal.Read
import proofs.«418180_j37941741093302_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- Row `i 0` of the left operand against column `i 1` of the right: the dot_general is the projection. -/
theorem proj_eq (x0 : FVec Ideal S100000x256 .f32) (x1 : FVec Ideal S256x64 .f32) :
    val_main_v0 (F := Ideal) x0 x1 = Cert.Spec.proj x0 x1 := by
  funext i
  rw [val_main_v0_apply]
  unfold Cert.Spec.proj
  refine Finset.sum_congr rfl fun k _ => ?_
  have el : lidx_main_v0 i k = ix2 (⟨(i 0).val, (i 0).isLt⟩ : Fin 100000) k := by
    funext a; match a with | ⟨0, _⟩ => rfl | ⟨1, _⟩ => rfl
  have er : ridx_main_v0 i k = ix2 k (⟨(i 1).val, (i 1).isLt⟩ : Fin 64) := by
    funext a; match a with | ⟨0, _⟩ => rfl | ⟨1, _⟩ => rfl
  rw [el, er]

/-- The reference's gather takes whole rows, as the specification's does: the two records have the same fields. -/
theorem takeRows_eq : gather_S100000x64_S3200000x1_S3200000x64_1_0_n_n_0_1_164 = Cert.Spec.takeRows := rfl

/-- The reference's scatter adds whole rows, as the specification's does: the two records have the same fields. -/
theorem addRows_eq : scatter_S100000x64_S3200000x1_S3200000x64_1_0_0_1 = Cert.Spec.addRows := rfl

/-- The reference's wrap / take / scale / scatter-add chain is the specification's chain, applied to the projection. -/
theorem mid_eq (x0 : FVec Ideal S100000x256 .f32) (x1 : FVec Ideal S256x64 .f32) (x2 x3 : IVec S3200000 32)
    (x4 : FVec Ideal S3200000 .f32) :
    val_main_v13 (F := Ideal) x0 x1 x2 x3 x4 = Cert.Spec.mid (Cert.Spec.proj x0 x1) x2 x3 x4 := by
  unfold val_main_v13 val_main_v12 val_main_v11 val_main_cst val_main_v10 val_main_v9 val_main_v1 val_main_v8 val_main_v7
    val_main_v6 val_main_v5 val_main_v4 val_main_c_0 val_main_v3 val_main_v2 val_main_c
  rw [proj_eq, takeRows_eq, addRows_eq]
  rfl

/-- The reduced index `j` with `k` put back on the dropped axis is (j 0, k). -/
theorem lift_eq (h : S100000x64.Reduces [1] S100000) (j : S100000.Idx) (k : Fin (S100000x64.size 1)) :
    h.lift j k = ix2 (⟨(j 0).val, (j 0).isLt⟩ : Fin 100000) (⟨k.val, k.isLt⟩ : Fin 64) := by
  funext c; apply Fin.ext
  match c with | ⟨0, _⟩ => rfl | ⟨1, _⟩ => rfl

/-- The constant 0xFF800000 is −∞. -/
theorem negInf_eq : Ideal.ofBits .f32 0xFF800000#32 = (⊥ : EReal) := by
  simp [Ideal.ofBits, Ideal.ieee]

/-- From −∞ the reduce with a maximum body over the 64 columns, at row `j`, is that row's maximum. -/
theorem reduceMax_apply (a : FVec Ideal S100000x64 .f32) (j : S100000.Idx) :
    Host.reduce FloatOps.maximumf a (constant (F := Ideal) S_ .f32 0xFF800000#32) reducesTo_S100000x64_S100000_d1 h_S_ j
      = Cert.Spec.rowMax a (⟨(j 0).val, (j 0).isLt⟩ : Fin 100000) := by
  have h : S100000x64.Reduces [1] S100000 := by decide
  rw [Host.reduce_eq_fold_single FloatOps.maximumf a _ reducesTo_S100000x64_S100000_d1 h h_S_]
  unfold Cert.Spec.rowMax
  have hb : (constant (F := Ideal) S_ .f32 0xFF800000#32) (Shape.Idx.first h_S_) = (⊥ : EReal) := negInf_eq
  have hf : (a ∘ h.lift j) = fun k : Fin 64 => a (ix2 (⟨(j 0).val, (j 0).isLt⟩ : Fin 100000) k) :=
    funext fun k => congrArg a (lift_eq h j k)
  exact congrArg₂ (fun b f => Finset.fold (max : EReal → EReal → EReal) b f (Finset.univ : Finset (Fin 64))) hb hf

/-- An entry of the exponential stage: the exponential of the scatter's entry less its row's maximum. -/
theorem exp_stage_apply (x0 : FVec Ideal S100000x256 .f32) (x1 : FVec Ideal S256x64 .f32) (x2 x3 : IVec S3200000 32)
    (x4 : FVec Ideal S3200000 .f32) (i : S100000x64.Idx) :
    val_main_v20 (F := Ideal) x0 x1 x2 x3 x4 i
      = Ideal.exp (val_main_v13 (F := Ideal) x0 x1 x2 x3 x4 i
          - Cert.Spec.rowMax (val_main_v13 (F := Ideal) x0 x1 x2 x3 x4) (⟨(i 0).val, (i 0).isLt⟩ : Fin 100000)) := by
  rw [val_main_v20_apply, val_main_v19_apply, val_main_v18_apply, val_main_v17_apply, val_main_v16_apply,
    val_main_v15_apply, val_main_cst_2_apply]
  unfold val_main_v14 val_main_cst_1
  rw [reduceMax_apply]
  generalize val_main_v13 (F := Ideal) x0 x1 x2 x3 x4 = a
  show Ideal.exp (a i - max (Ideal.ofBits .f32 0xFF800000#32)
    (Cert.Spec.rowMax a (⟨(i 0).val, (i 0).isLt⟩ : Fin 100000))) = _
  rw [negInf_eq, max_eq_right bot_le]

/-- The reference's last stage is the specification's result. -/
theorem result_eq (x0 : FVec Ideal S100000x256 .f32) (x1 : FVec Ideal S256x64 .f32) (x2 x3 : IVec S3200000 32)
    (x4 : FVec Ideal S3200000 .f32) :
    val_main_v24 (F := Ideal) x0 x1 x2 x3 x4 = Cert.Spec.result x0 x1 x2 x3 x4 := by
  unfold Cert.Spec.result
  rw [← mid_eq]
  funext i
  rw [val_main_v24_apply, val_main_v23_apply, val_main_v22_apply, val_main_v21_apply, exp_stage_apply]
  unfold Cert.Spec.softmaxRows Cert.Spec.rowSum
  have hz : (val_main_cst_3 (F := Ideal)) (Shape.Idx.first h_S_) = (0 : EReal) := Ideal.ofBits_zero_f32
  have hs : ∑ k : Fin 64, val_main_v20 (F := Ideal) x0 x1 x2 x3 x4 (idx_main_v21 (idx_main_v22 (idx_main_v23 i)) k)
      = ∑ k : Fin 64, Ideal.exp (val_main_v13 (F := Ideal) x0 x1 x2 x3 x4 (ix2 (⟨(i 0).val, (i 0).isLt⟩ : Fin 100000) k)
          - Cert.Spec.rowMax (val_main_v13 (F := Ideal) x0 x1 x2 x3 x4) (⟨(i 0).val, (i 0).isLt⟩ : Fin 100000)) := by
    refine Finset.sum_congr rfl fun k _ => ?_
    have hidx : idx_main_v21 (idx_main_v22 (idx_main_v23 i)) k = ix2 (⟨(i 0).val, (i 0).isLt⟩ : Fin 100000) k := by
      funext a; match a with | ⟨0, _⟩ => rfl | ⟨1, _⟩ => rfl
    rw [hidx, exp_stage_apply]
  rw [hz, hs, zero_add]
  rfl

end Cert.ReferenceIdeal.RefValue

end
-- ==== Proof.lean ====
/-
  The certificate of a graph-convolution layer: h = x · w (a dense projection), then for every edge e the message
  vals[e] · h[cols[e], :] added into row rows[e] of a zero table (a sparse adjacency product), then a softmax over
  each row. The kernel program computes the projection and the softmax in two Pallas regions (twenty blocks of 5000
  rows each) and the aggregation by host operations between them; the reference computes all three on the host.

  Over the extended reals the two agree: the blocked product is the whole product (a change of float format is the
  identity, a sum's order does not matter), the blocked row softmax is the row softmax (a row lies in one block), and the
  aggregation is literally the same chain of operations — except that the kernel program's take replaces a row by a
  fill value where its column index is out of range while the reference's take clamps it. The precondition therefore
  asks, beside finiteness, that every column index is in [0, 100000), the range of the table it indexes; there the fill
  is never chosen. Both results are then `Cert.Spec.result` of the five arguments.

  The three frames: the two kernel programs' are the generated frame certificates; the reference's is its generated run
  with the result dropped. The ideal pass rewrote nothing, so `preserves` is trivial.
-/
import proofs.«418180_j37941741093302_2_alg».proof.Defs
import proofs.«418180_j37941741093302_2_alg».proof.Proof.Gen.Kernel
import proofs.«418180_j37941741093302_2_alg».proof.Proof.Gen.Kernel.Skeleton
import proofs.«418180_j37941741093302_2_alg».proof.Proof.Gen.Kernel.Launch
import proofs.«418180_j37941741093302_2_alg».proof.Proof.Gen.Kernel.Points
import proofs.«418180_j37941741093302_2_alg».proof.Proof.Gen.Kernel.Frame
import proofs.«418180_j37941741093302_2_alg».proof.Proof.Gen.KernelIdeal
import proofs.«418180_j37941741093302_2_alg».proof.Proof.Gen.KernelIdeal.Skeleton
import proofs.«418180_j37941741093302_2_alg».proof.Proof.Gen.KernelIdeal.Launch
import proofs.«418180_j37941741093302_2_alg».proof.Proof.Gen.KernelIdeal.Points
import proofs.«418180_j37941741093302_2_alg».proof.Proof.Gen.KernelIdeal.Frame
import proofs.«418180_j37941741093302_2_alg».proof.Proof.Gen.ReferenceIdeal
import proofs.«418180_j37941741093302_2_alg».proof.Proof.Gen.Pre_finite_inputs
import proofs.«418180_j37941741093302_2_alg».proof.Proof.Gen.ReferenceIdeal.Run
import proofs.«418180_j37941741093302_2_alg».proof.Proof.Gen.ReferenceIdeal.Read
import proofs.«418180_j37941741093302_2_alg».proof.Proof.Spec
import proofs.«418180_j37941741093302_2_alg».proof.Proof.RunV
import proofs.«418180_j37941741093302_2_alg».proof.Proof.KernelValue
import proofs.«418180_j37941741093302_2_alg».proof.Proof.PreRange
import proofs.«418180_j37941741093302_2_alg».proof.Proof.RefValue
import Idealize.ShloMosaic.Adequacy
import Idealize.ShloMosaic.Init

noncomputable section

namespace Cert.Proof

open Idealize.ShloMosaic Idealize.SL.Sem

/-- Both idealized programs, from memories agreeing on the arguments, end with the specification's result of the
    arguments in their result buffers: the kernel program's by its run with the result named and the value read off the
    two regions and the host operations between them (the column indices in range by the precondition), the reference's
    by its run and its operations read one at a time. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.w4_v8 m ρ c
          (Cert.PreRange.cols_range _ _ _ _ _ (hpre c))), (h c).2⟩)
      (Cert.KernelIdeal.RunV.run_v8 (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
